-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x40, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x40, .f32⟩
  | .hbm, ⟨78, _⟩ => ⟨S1700000x1, .f32⟩
  | .hbm, ⟨79, _⟩ => ⟨S1700000x40, .f32⟩
  | .hbm, ⟨80, _⟩ => ⟨S1700000x40, .f32⟩
  | .hbm, ⟨81, _⟩ => ⟨S_, .f32⟩
  | .hbm, ⟨82, _⟩ => ⟨S100000x40, .f32⟩
  | .hbm, ⟨83, _⟩ => ⟨S1700000x1, .i32⟩
  | .hbm, ⟨84, _⟩ => ⟨S100000x40, .f32⟩
  | .hbm, ⟨85, _⟩ => ⟨S1x40, .f32⟩
  | .hbm, ⟨86, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x40, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x40, .f32⟩
  | .hbm, ⟨82, _⟩ => ⟨S1700000x1, .f32⟩
  | .hbm, ⟨83, _⟩ => ⟨S1700000x40, .f32⟩
  | .hbm, ⟨84, _⟩ => ⟨S1700000x40, .f32⟩
  | .hbm, ⟨85, _⟩ => ⟨S_, .f32⟩
  | .hbm, ⟨86, _⟩ => ⟨S100000x40, .f32⟩
  | .hbm, ⟨87, _⟩ => ⟨S1700000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.RefChain.lean ====
/-
  The reference's operations read in stretches, each against the stage it ends in.

  The reference is one line of host operations. Its run leaves every buffer at the operations' composed results
  over the launch contents. Cut at the points where the kernel program has its regions — after the edge lists and
  weights, after the first layer's positive part, after the second layer's biased sum — each stretch computes a named
  stage of the stretch before it, and every buffer a later stretch still reads (the two edge lists, the weights, the
  remaining arguments) is one the stretches between do not write. The last stretch, the logarithm of the softmax, is
  cut in three: the row maximum, the shifted entries and their exponentials, the row sums and the result. The row
  maximum's stretch is read with the reduction over the columns as a parameter — what the stretch does with it does
  not depend on what it is — and the program's own reduction is put in afterwards.
-/
import proofs.«182202_j6330781794593_1_alg».proof.Proof.RefRead
import Idealize.ShloMosaic.Lib.StableHlo.Run

set_option maxRecDepth 16384

noncomputable section

namespace Cert.ReferenceIdeal.RefChain

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

/-- A host stretch leaves a buffer it does not write as it found it: each operation's written reference differs from it. -/
macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable {F : FTy → Type} [FloatOps F]

/-- The contents after two lines of operations, one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-! ## The stretches -/

/-- The edge lists with the self loops, the degrees, and the inverse square roots. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]
/-- The `where`: zero where the degree is zero. -/
abbrev opsB : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]
/-- Each edge's weight. -/
abbrev opsC : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]
/-- The first layer: product, gather, scale, scatter-add, bias, positive part. -/
abbrev opsD : List (HloOp τ sig (Elt F)) :=
  [ binary main_arg0 main_arg2 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]
/-- The second layer up to its biased sum. -/
abbrev opsE : List (HloOp τ sig (Elt F)) :=
  [ binary main_v49 main_arg4 main_v50 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x40 ![0, 1] bcast_S1700000x1_S1700000x40_0_1 : (⟨S1700000x1, .f32⟩ : BufTy).Contents (Elt F) → (⟨S1700000x40, .f32⟩ : BufTy).Contents (Elt F)),
    binary main_v57 main_v59 main_v60 (mulf : (⟨S1700000x40, .f32⟩ : BufTy).Contents (Elt F) → (⟨S1700000x40, .f32⟩ : BufTy).Contents (Elt F) → (⟨S1700000x40, .f32⟩ : BufTy).Contents (Elt F)),
    nullary main_cst_12 (constant S_ .f32 0x00000000#32),
    unary main_cst_12 main_v61 (broadcastInDim S100000x40 ![] bcast_S_S100000x40 : (⟨S_, .f32⟩ : BufTy).Contents (Elt F) → (⟨S100000x40, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg5 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)) ]
/-- The row maximum, taken from the lower bound and once more against it; the reduction over the columns is the
    parameter `g`. -/
abbrev opsG1of (g : (⟨S100000x40, .f32⟩ : BufTy).Contents (Elt F) → (⟨S_, .f32⟩ : BufTy).Contents (Elt F) → (⟨S100000, .f32⟩ : BufTy).Contents (Elt F)) : List (HloOp τ sig (Elt F)) :=
  [ TRef.nullary (TRef.of (T := ⟨S_, .f32⟩) main_call2_cst) (constant S_ .f32 0xFF800000#32),
    TRef.binary (TRef.of (T := ⟨S100000x40, .f32⟩) main_v66) (TRef.of (T := ⟨S_, .f32⟩) main_call2_cst) (TRef.of (T := ⟨S100000, .f32⟩) main_call2_v0) g,
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]
/-- The same with the reduction the program has. -/
abbrev opsG1 : List (HloOp τ sig (Elt F)) :=
  opsG1of (fun x v => Host.reduce FloatOps.maximumf x v reducesTo_S100000x40_S100000_d1 h_S_)
/-- The shifted entries and their exponentials. -/
abbrev opsG2 : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v66) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp ]
/-- The row sums, their logarithms, and the result. -/
abbrev opsG3 : List (HloOp τ sig (Elt F)) :=
  [ TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v67) subf ]

/-- The program's line is the stretches in order. -/
theorem ops_eq : (ops : List (HloOp τ sig (Elt F))) = opsA ++ (opsB ++ (opsC ++ (opsD ++ (opsE ++ (opsG1 ++ (opsG2 ++ opsG3)))))) := rfl

variable (m : (ℓ : Loc nD τ sig) → Buf (Elt F) ℓ) (c : Dev nD)

/-- The contents at the cuts. -/
abbrev R0 : Valuation τ sig (Elt F) := launchContents m c
abbrev R1 : Valuation τ sig (Elt F) := after opsA (R0 m c)
abbrev R2 : Valuation τ sig (Elt F) := after opsB (R1 m c)
abbrev R3 : Valuation τ sig (Elt F) := after opsC (R2 m c)
abbrev R4 : Valuation τ sig (Elt F) := after opsD (R3 m c)
abbrev R5 : Valuation τ sig (Elt F) := after opsE (R4 m c)
abbrev R6a : Valuation τ sig (Elt F) := after opsG1 (R5 m c)
abbrev R6b : Valuation τ sig (Elt F) := after opsG2 (R6a m c)
abbrev R6 : Valuation τ sig (Elt F) := after opsG3 (R6b m c)

theorem R0_eq (b : Ref sig .tc) : R0 m c (Proc.devRef .tc b) = m ((c.tc : Thread nD τ).loc b) := rfl

/-! ## The first stretch -/

theorem R1_v3 : R1 m c (Proc.devRef .tc main_v3) = val_main_v3 (F := F) (m ((c.tc : Thread nD τ).loc main_arg1)) := by
  show after opsA (R0 m c) (Proc.devRef .tc main_v3) = _
  generalize hV : R0 m c = V
  after_results
  (try simp only [TRef.ofBuf, TRef.toBuf, cast_eq])
  all_goals subst hV
  all_goals rfl

theorem R1_v6 : R1 m c (Proc.devRef .tc main_v6) = val_main_v6 (F := F) (m ((c.tc : Thread nD τ).loc main_arg1)) := by
  show after opsA (R0 m c) (Proc.devRef .tc main_v6) = _
  generalize hV : R0 m c = V
  after_results
  (try simp only [TRef.ofBuf, TRef.toBuf, cast_eq])
  all_goals subst hV
  all_goals rfl

theorem R1_v12 : R1 m c (Proc.devRef .tc main_v12) = val_main_v12 (F := F) (m ((c.tc : Thread nD τ).loc main_arg1)) := by
  show after opsA (R0 m c) (Proc.devRef .tc main_v12) = _
  generalize hV : R0 m c = V
  after_results
  (try simp only [TRef.ofBuf, TRef.toBuf, cast_eq])
  all_goals subst hV
  all_goals rfl

theorem R1_v15 : R1 m c (Proc.devRef .tc main_v15) = val_main_v15 (F := F) (m ((c.tc : Thread nD τ).loc main_arg1)) := by
  show after opsA (R0 m c) (Proc.devRef .tc main_v15) = _
  generalize hV : R0 m c = V
  after_results
  (try simp only [TRef.ofBuf, TRef.toBuf, cast_eq])
  all_goals subst hV
  all_goals rfl

theorem R1_cst_3 : R1 m c (Proc.devRef .tc main_cst_3) = val_main_cst_3 (F := F) := by
  show after opsA (R0 m c) (Proc.devRef .tc main_cst_3) = _
  generalize hV : R0 m c = V
  after_results
  (try simp only [TRef.ofBuf, TRef.toBuf, cast_eq])
  all_goals subst hV
  all_goals rfl

/-! ## The `where`, and the weights -/

theorem R2_keep_v3 : R2 m c (Proc.devRef .tc main_v3) = R1 m c (Proc.devRef .tc main_v3) := by host_keep opsB
theorem R2_keep_v6 : R2 m c (Proc.devRef .tc main_v6) = R1 m c (Proc.devRef .tc main_v6) := by host_keep opsB

set_option maxHeartbeats 4000000 in
theorem R2_v16 : R2 m c (Proc.devRef .tc main_v16) = val_main_v16 (F := F) (m ((c.tc : Thread nD τ).loc main_arg1)) := by
  show after opsB (R1 m c) (Proc.devRef .tc main_v16) = _
  generalize hV : R1 m c = V
  after_results_simp
  (try simp only [TRef.ofBuf, TRef.toBuf, cast_eq])
  all_goals subst hV
  all_goals (rw [R1_v12, R1_v15, R1_cst_3])
  all_goals (try simp only [val_main_call0_v0, val_main_call0_v1, val_main_v16])
  all_goals rfl

set_option maxHeartbeats 4000000 in
theorem R3_v31 : R3 m c (Proc.devRef .tc main_v31) = val_main_v31 (F := F) (m ((c.tc : Thread nD τ).loc main_arg1)) := by
  show after opsC (R2 m c) (Proc.devRef .tc main_v31) = _
  generalize hV : R2 m c = V
  after_results_simp
  (try simp only [TRef.ofBuf, TRef.toBuf, cast_eq])
  all_goals subst hV
  all_goals (rw [R2_v16, R2_keep_v3, R2_keep_v6, R1_v3, R1_v6])
  all_goals (try simp only [val_main_c, val_main_v17, val_main_v18, val_main_c_4, val_main_v19, val_main_v20, val_main_v21, val_main_v22, val_main_v23, val_main_c_5, val_main_v24, val_main_v25, val_main_c_6, val_main_v26, val_main_v27, val_main_v28, val_main_v29, val_main_v30, val_main_v31])
  all_goals rfl

theorem R3_v3 : R3 m c (Proc.devRef .tc main_v3) = val_main_v3 (F := F) (m ((c.tc : Thread nD τ).loc main_arg1)) :=
  (show R3 m c (Proc.devRef .tc main_v3) = R2 m c (Proc.devRef .tc main_v3) by host_keep opsC).trans ((R2_keep_v3 m c).trans (R1_v3 m c))
theorem R3_v6 : R3 m c (Proc.devRef .tc main_v6) = val_main_v6 (F := F) (m ((c.tc : Thread nD τ).loc main_arg1)) :=
  (show R3 m c (Proc.devRef .tc main_v6) = R2 m c (Proc.devRef .tc main_v6) by host_keep opsC).trans ((R2_keep_v6 m c).trans (R1_v6 m c))
theorem R3_arg0 : R3 m c (Proc.devRef .tc main_arg0) = m ((c.tc : Thread nD τ).loc main_arg0) :=
  calc R3 m c (Proc.devRef .tc main_arg0)
    _ = R2 m c (Proc.devRef .tc main_arg0) := by host_keep opsC
    _ = R1 m c (Proc.devRef .tc main_arg0) := by host_keep opsB
    _ = R0 m c (Proc.devRef .tc main_arg0) := by host_keep opsA
    _ = m ((c.tc : Thread nD τ).loc main_arg0) := rfl
theorem R3_arg2 : R3 m c (Proc.devRef .tc main_arg2) = m ((c.tc : Thread nD τ).loc main_arg2) :=
  calc R3 m c (Proc.devRef .tc main_arg2)
    _ = R2 m c (Proc.devRef .tc main_arg2) := by host_keep opsC
    _ = R1 m c (Proc.devRef .tc main_arg2) := by host_keep opsB
    _ = R0 m c (Proc.devRef .tc main_arg2) := by host_keep opsA
    _ = m ((c.tc : Thread nD τ).loc main_arg2) := rfl
theorem R3_arg3 : R3 m c (Proc.devRef .tc main_arg3) = m ((c.tc : Thread nD τ).loc main_arg3) :=
  calc R3 m c (Proc.devRef .tc main_arg3)
    _ = R2 m c (Proc.devRef .tc main_arg3) := by host_keep opsC
    _ = R1 m c (Proc.devRef .tc main_arg3) := by host_keep opsB
    _ = R0 m c (Proc.devRef .tc main_arg3) := by host_keep opsA
    _ = m ((c.tc : Thread nD τ).loc main_arg3) := rfl
theorem R3_arg4 : R3 m c (Proc.devRef .tc main_arg4) = m ((c.tc : Thread nD τ).loc main_arg4) :=
  calc R3 m c (Proc.devRef .tc main_arg4)
    _ = R2 m c (Proc.devRef .tc main_arg4) := by host_keep opsC
    _ = R1 m c (Proc.devRef .tc main_arg4) := by host_keep opsB
    _ = R0 m c (Proc.devRef .tc main_arg4) := by host_keep opsA
    _ = m ((c.tc : Thread nD τ).loc main_arg4) := rfl
theorem R3_arg5 : R3 m c (Proc.devRef .tc main_arg5) = m ((c.tc : Thread nD τ).loc main_arg5) :=
  calc R3 m c (Proc.devRef .tc main_arg5)
    _ = R2 m c (Proc.devRef .tc main_arg5) := by host_keep opsC
    _ = R1 m c (Proc.devRef .tc main_arg5) := by host_keep opsB
    _ = R0 m c (Proc.devRef .tc main_arg5) := by host_keep opsA
    _ = m ((c.tc : Thread nD τ).loc main_arg5) := rfl

/-! ## The first layer -/

set_option maxHeartbeats 4000000 in
theorem R4_v49 : R4 m c (Proc.devRef .tc main_v49) = val_main_v49 (F := F) (m ((c.tc : Thread nD τ).loc main_arg0)) (m ((c.tc : Thread nD τ).loc main_arg1)) (m ((c.tc : Thread nD τ).loc main_arg2)) (m ((c.tc : Thread nD τ).loc main_arg3)) := by
  show after opsD (R3 m c) (Proc.devRef .tc main_v49) = _
  generalize hV : R3 m c = V
  after_results_simp
  (try simp only [TRef.ofBuf, TRef.toBuf, cast_eq])
  all_goals subst hV
  all_goals (rw [R3_arg0, R3_arg2, R3_arg3, R3_v3, R3_v6, R3_v31])
  all_goals (try simp only [val_main_v32, val_main_c_7, val_main_v33, val_main_v34, val_main_c_8, val_main_v35, val_main_v36, val_main_v37, val_main_v38, val_main_v39, val_main_v40, val_main_v41, val_main_v42, val_main_cst_9, val_main_v43, val_main_v44, val_main_v45, val_main_v46, val_main_v47, val_main_v48, val_main_call1_cst, val_main_call1_v0, val_main_v49])
  all_goals rfl
theorem R4_v3 : R4 m c (Proc.devRef .tc main_v3) = val_main_v3 (F := F) (m ((c.tc : Thread nD τ).loc main_arg1)) :=
  (show R4 m c (Proc.devRef .tc main_v3) = R3 m c (Proc.devRef .tc main_v3) by host_keep opsD).trans (R3_v3 m c)
theorem R4_v6 : R4 m c (Proc.devRef .tc main_v6) = val_main_v6 (F := F) (m ((c.tc : Thread nD τ).loc main_arg1)) :=
  (show R4 m c (Proc.devRef .tc main_v6) = R3 m c (Proc.devRef .tc main_v6) by host_keep opsD).trans (R3_v6 m c)
theorem R4_v31 : R4 m c (Proc.devRef .tc main_v31) = val_main_v31 (F := F) (m ((c.tc : Thread nD τ).loc main_arg1)) :=
  (show R4 m c (Proc.devRef .tc main_v31) = R3 m c (Proc.devRef .tc main_v31) by host_keep opsD).trans (R3_v31 m c)
theorem R4_arg4 : R4 m c (Proc.devRef .tc main_arg4) = m ((c.tc : Thread nD τ).loc main_arg4) :=
  (show R4 m c (Proc.devRef .tc main_arg4) = R3 m c (Proc.devRef .tc main_arg4) by host_keep opsD).trans (R3_arg4 m c)
theorem R4_arg5 : R4 m c (Proc.devRef .tc main_arg5) = m ((c.tc : Thread nD τ).loc main_arg5) :=
  (show R4 m c (Proc.devRef .tc main_arg5) = R3 m c (Proc.devRef .tc main_arg5) by host_keep opsD).trans (R3_arg5 m c)

/-! ## The second layer -/

set_option maxHeartbeats 4000000 in
theorem R5_v66 : R5 m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsE (R4 m c) (Proc.devRef .tc main_v66) = _
  generalize hV : R4 m c = V
  after_results_simp
  (try simp only [TRef.ofBuf, TRef.toBuf, cast_eq])
  all_goals subst hV
  all_goals (rw [R4_v49, R4_arg4, R4_arg5, R4_v3, R4_v6, R4_v31])
  all_goals (try simp only [val_main_v50, val_main_c_10, val_main_v51, val_main_v52, val_main_c_11, val_main_v53, val_main_v54, val_main_v55, val_main_v56, val_main_v57, val_main_v58, val_main_v59, val_main_v60, val_main_cst_12, val_main_v61, val_main_v62, val_main_v63, val_main_v64, val_main_v65, val_main_v66])
  all_goals rfl

/-! ## The logarithm of the softmax, and the whole line -/

/-- The maximum stretch read with the reduction a parameter: the maximum of the lower bound, broadcast, with the
    reduction of the entry contents of `main_v66` from that bound. -/
theorem G1_read (g : (⟨S100000x40, .f32⟩ : BufTy).Contents (Elt F) → (⟨S_, .f32⟩ : BufTy).Contents (Elt F) → (⟨S100000, .f32⟩ : BufTy).Contents (Elt F)) (V : Valuation τ sig (Elt F)) :
    after (opsG1of g) V (Proc.devRef .tc main_call2_v2)
      = maximumf (broadcastInDim S100000 ![] bcast_S_S100000 (constant S_ .f32 0xFF800000#32))
          (g (V (Proc.devRef .tc main_v66)) (constant S_ .f32 0xFF800000#32)) := by
  after_results_simp
  (try simp only [TRef.ofBuf, TRef.toBuf, cast_eq])
  all_goals rfl

theorem R6a_v2 : R6a m c (Proc.devRef .tc main_call2_v2) = val_main_call2_v2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (G1_read _ (R5 m c)).trans ?_
  rw [R5_v66]
  simp only [val_main_call2_cst, val_main_call2_v0, val_main_call2_cst_0, val_main_call2_v1, val_main_call2_v2]

theorem R6a_v66 : R6a m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (show R6a m c (Proc.devRef .tc main_v66) = R5 m c (Proc.devRef .tc main_v66) by host_keep opsG1).trans (R5_v66 m c)

set_option maxHeartbeats 4000000 in
theorem R6b_v5 : R6b m c (Proc.devRef .tc main_call2_v5) = val_main_call2_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsG2 (R6a m c) (Proc.devRef .tc main_call2_v5) = _
  generalize hV : R6a m c = V
  after_results_simp
  (try simp only [TRef.ofBuf, TRef.toBuf, cast_eq])
  all_goals subst hV
  all_goals (rw [R6a_v66, R6a_v2])
  all_goals (try simp only [val_main_call2_v3, val_main_call2_v4, val_main_call2_v5, val_main_call2_v6])
  all_goals rfl

set_option maxHeartbeats 4000000 in
theorem R6b_v6 : R6b m c (Proc.devRef .tc main_call2_v6) = val_main_call2_v6 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsG2 (R6a m c) (Proc.devRef .tc main_call2_v6) = _
  generalize hV : R6a m c = V
  after_results_simp
  (try simp only [TRef.ofBuf, TRef.toBuf, cast_eq])
  all_goals subst hV
  all_goals (rw [R6a_v66, R6a_v2])
  all_goals (try simp only [val_main_call2_v3, val_main_call2_v4, val_main_call2_v5, val_main_call2_v6])
  all_goals rfl

set_option maxHeartbeats 4000000 in
theorem R6_v67 : R6 m c (Proc.devRef .tc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsG3 (R6b m c) (Proc.devRef .tc main_v67) = _
  generalize hV : R6b m c = V
  after_results_simp
  (try simp only [TRef.ofBuf, TRef.toBuf, cast_eq])
  all_goals subst hV
  all_goals (rw [R6b_v5, R6b_v6])
  all_goals (try simp only [val_main_call2_cst_1, val_main_call2_v7, val_main_call2_v8, val_main_call2_v9, val_main_call2_v10, val_main_v67])
  all_goals rfl

/-- THE RESULT: the reference's result buffer after its whole line of operations is its last stage of the launch
    arguments. -/
theorem result_eq : after (ops : List (HloOp τ sig (Elt F))) (launchContents m c) (Proc.devRef .tc main_v67)
    = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_eq, after_app, after_app, after_app, after_app, after_app, after_app, after_app]
  exact R6_v67 m c

end Cert.ReferenceIdeal.RefChain

end
-- ==== Proof.Carry.lean ====
/-
  Which buffers each segment of the program leaves as it found them.

  The program runs nine segments: three stretches of host operations, the first dense region, a stretch, the
  bias-and-positive-part region, the second dense region, a stretch, and the last region. A host stretch changes only
  the buffers its operations write, and a region only its result array. So the edge lists, the normalisation
  weights and the weight and bias arguments reach every later segment that reads them unchanged.
-/
import proofs.«182202_j6330781794593_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

/-- A host stretch leaves a buffer it does not write as it found it: each operation's written reference differs from it. -/
macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg) (c : Dev nD)

/-- At launch a buffer holds the launch memory's contents. -/
theorem W0_eq (b : Ref sig .tc) : W0 m ρ c (Proc.devRef .tc b) = m ((c : Thread nD τ).loc b) := rfl

/-! ## The arguments up to the first region's entry -/

theorem W3_main_arg0 : W3 m ρ c (Proc.devRef .tc main_arg0) = m ((c : Thread nD τ).loc main_arg0) :=
  calc W3 m ρ c (Proc.devRef .tc main_arg0)
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = m ((c : Thread nD τ).loc main_arg0) := rfl

theorem W3_main_arg1 : W3 m ρ c (Proc.devRef .tc main_arg1) = m ((c : Thread nD τ).loc main_arg1) :=
  calc W3 m ρ c (Proc.devRef .tc main_arg1)
    _ = W2 m ρ c (Proc.devRef .tc main_arg1) := by host_keep hostOps0_2
    _ = W1 m ρ c (Proc.devRef .tc main_arg1) := by host_keep hostOps0_1
    _ = W0 m ρ c (Proc.devRef .tc main_arg1) := by host_keep hostOps0
    _ = m ((c : Thread nD τ).loc main_arg1) := rfl

theorem W3_main_arg2 : W3 m ρ c (Proc.devRef .tc main_arg2) = m ((c : Thread nD τ).loc main_arg2) :=
  calc W3 m ρ c (Proc.devRef .tc main_arg2)
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0
    _ = m ((c : Thread nD τ).loc main_arg2) := rfl

theorem W3_main_arg3 : W3 m ρ c (Proc.devRef .tc main_arg3) = m ((c : Thread nD τ).loc main_arg3) :=
  calc W3 m ρ c (Proc.devRef .tc main_arg3)
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0
    _ = m ((c : Thread nD τ).loc main_arg3) := rfl

theorem W3_main_arg4 : W3 m ρ c (Proc.devRef .tc main_arg4) = m ((c : Thread nD τ).loc main_arg4) :=
  calc W3 m ρ c (Proc.devRef .tc main_arg4)
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0
    _ = m ((c : Thread nD τ).loc main_arg4) := rfl

theorem W3_main_arg5 : W3 m ρ c (Proc.devRef .tc main_arg5) = m ((c : Thread nD τ).loc main_arg5) :=
  calc W3 m ρ c (Proc.devRef .tc main_arg5)
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0
    _ = m ((c : Thread nD τ).loc main_arg5) := rfl

/-! ## The edge lists through the first three stretches -/

theorem W2_main_v3 : W2 m ρ c (Proc.devRef .tc main_v3) = W1 m ρ c (Proc.devRef .tc main_v3) := by host_keep hostOps0_1
theorem W3_main_v3 : W3 m ρ c (Proc.devRef .tc main_v3) = W1 m ρ c (Proc.devRef .tc main_v3) :=
  calc W3 m ρ c (Proc.devRef .tc main_v3)
    _ = W2 m ρ c (Proc.devRef .tc main_v3) := by host_keep hostOps0_2
    _ = W1 m ρ c (Proc.devRef .tc main_v3) := W2_main_v3 m ρ c

theorem W2_main_v6 : W2 m ρ c (Proc.devRef .tc main_v6) = W1 m ρ c (Proc.devRef .tc main_v6) := by host_keep hostOps0_1
theorem W3_main_v6 : W3 m ρ c (Proc.devRef .tc main_v6) = W1 m ρ c (Proc.devRef .tc main_v6) :=
  calc W3 m ρ c (Proc.devRef .tc main_v6)
    _ = W2 m ρ c (Proc.devRef .tc main_v6) := by host_keep hostOps0_2
    _ = W1 m ρ c (Proc.devRef .tc main_v6) := W2_main_v6 m ρ c

/-! ## Through the first dense region and the stretch after it -/
theorem W4_main_v3 : W4 m ρ c (Proc.devRef .tc main_v3) = W3 m ρ c (Proc.devRef .tc main_v3) := W4_of_ne m ρ c main_v3 (by decide)
theorem W4_main_v6 : W4 m ρ c (Proc.devRef .tc main_v6) = W3 m ρ c (Proc.devRef .tc main_v6) := W4_of_ne m ρ c main_v6 (by decide)
theorem W4_main_v31 : W4 m ρ c (Proc.devRef .tc main_v31) = W3 m ρ c (Proc.devRef .tc main_v31) := W4_of_ne m ρ c main_v31 (by decide)
theorem W4_main_arg3 : W4 m ρ c (Proc.devRef .tc main_arg3) = W3 m ρ c (Proc.devRef .tc main_arg3) := W4_of_ne m ρ c main_arg3 (by decide)
theorem W4_main_arg4 : W4 m ρ c (Proc.devRef .tc main_arg4) = W3 m ρ c (Proc.devRef .tc main_arg4) := W4_of_ne m ρ c main_arg4 (by decide)
theorem W4_main_arg5 : W4 m ρ c (Proc.devRef .tc main_arg5) = W3 m ρ c (Proc.devRef .tc main_arg5) := W4_of_ne m ρ c main_arg5 (by decide)
theorem W5_main_v3 : W5 m ρ c (Proc.devRef .tc main_v3) = W3 m ρ c (Proc.devRef .tc main_v3) :=
  (show W5 m ρ c (Proc.devRef .tc main_v3) = W4 m ρ c (Proc.devRef .tc main_v3) by host_keep hostOps1).trans (W4_main_v3 m ρ c)
theorem W5_main_v6 : W5 m ρ c (Proc.devRef .tc main_v6) = W3 m ρ c (Proc.devRef .tc main_v6) :=
  (show W5 m ρ c (Proc.devRef .tc main_v6) = W4 m ρ c (Proc.devRef .tc main_v6) by host_keep hostOps1).trans (W4_main_v6 m ρ c)
theorem W5_main_v31 : W5 m ρ c (Proc.devRef .tc main_v31) = W3 m ρ c (Proc.devRef .tc main_v31) :=
  (show W5 m ρ c (Proc.devRef .tc main_v31) = W4 m ρ c (Proc.devRef .tc main_v31) by host_keep hostOps1).trans (W4_main_v31 m ρ c)
theorem W5_main_arg4 : W5 m ρ c (Proc.devRef .tc main_arg4) = W3 m ρ c (Proc.devRef .tc main_arg4) :=
  (show W5 m ρ c (Proc.devRef .tc main_arg4) = W4 m ρ c (Proc.devRef .tc main_arg4) by host_keep hostOps1).trans (W4_main_arg4 m ρ c)
theorem W5_main_arg5 : W5 m ρ c (Proc.devRef .tc main_arg5) = W3 m ρ c (Proc.devRef .tc main_arg5) :=
  (show W5 m ρ c (Proc.devRef .tc main_arg5) = W4 m ρ c (Proc.devRef .tc main_arg5) by host_keep hostOps1).trans (W4_main_arg5 m ρ c)

/-! ## Through the two middle regions -/
theorem W6_main_v3 : W6 m ρ c (Proc.devRef .tc main_v3) = W3 m ρ c (Proc.devRef .tc main_v3) := (W6_of_ne m ρ c main_v3 (by decide)).trans (W5_main_v3 m ρ c)
theorem W6_main_v6 : W6 m ρ c (Proc.devRef .tc main_v6) = W3 m ρ c (Proc.devRef .tc main_v6) := (W6_of_ne m ρ c main_v6 (by decide)).trans (W5_main_v6 m ρ c)
theorem W6_main_v31 : W6 m ρ c (Proc.devRef .tc main_v31) = W3 m ρ c (Proc.devRef .tc main_v31) := (W6_of_ne m ρ c main_v31 (by decide)).trans (W5_main_v31 m ρ c)
theorem W6_main_arg4 : W6 m ρ c (Proc.devRef .tc main_arg4) = W3 m ρ c (Proc.devRef .tc main_arg4) := (W6_of_ne m ρ c main_arg4 (by decide)).trans (W5_main_arg4 m ρ c)
theorem W6_main_arg5 : W6 m ρ c (Proc.devRef .tc main_arg5) = W3 m ρ c (Proc.devRef .tc main_arg5) := (W6_of_ne m ρ c main_arg5 (by decide)).trans (W5_main_arg5 m ρ c)
theorem W7_main_v3 : W7 m ρ c (Proc.devRef .tc main_v3) = W3 m ρ c (Proc.devRef .tc main_v3) := (W7_of_ne m ρ c main_v3 (by decide)).trans (W6_main_v3 m ρ c)
theorem W7_main_v6 : W7 m ρ c (Proc.devRef .tc main_v6) = W3 m ρ c (Proc.devRef .tc main_v6) := (W7_of_ne m ρ c main_v6 (by decide)).trans (W6_main_v6 m ρ c)
theorem W7_main_v31 : W7 m ρ c (Proc.devRef .tc main_v31) = W3 m ρ c (Proc.devRef .tc main_v31) := (W7_of_ne m ρ c main_v31 (by decide)).trans (W6_main_v31 m ρ c)
theorem W7_main_arg5 : W7 m ρ c (Proc.devRef .tc main_arg5) = W3 m ρ c (Proc.devRef .tc main_arg5) := (W7_of_ne m ρ c main_arg5 (by decide)).trans (W6_main_arg5 m ρ c)

end Cert.KernelIdeal.Carry

end
-- ==== Proof.Spec.lean ====
/-
  The mathematics of one graph-convolution network, stated once over plain index functions on the extended reals.

  A dense layer sends a row `X r ·` to the sums `∑ j, X r j · W j c`; a bias row is added to every row; the first
  layer ends in `max · 0`, the second in the row-wise logarithm of the softmax, written as both programs compute
  it: subtract the row's maximum `M r`, then subtract `log ∑ j, exp (Y r j - M r)`.
  Nothing here needs a finite entry: only the shape of the sums is used, and `max` of a lower bound with a
  maximum taken from that bound is the maximum.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The row coordinate of an index of an `n × m` array, as a number below `n`. -/
abbrev row {n m : Nat} (i : (⟨2, ![n, m]⟩ : Shape).Idx) : Fin n := ⟨(i 0).val, idx2_lt0 i⟩
/-- Its column coordinate, as a number below `m`. -/
abbrev col {n m : Nat} (i : (⟨2, ![n, m]⟩ : Shape).Idx) : Fin m := ⟨(i 1).val, idx2_lt1 i⟩

theorem ix2_row_col {n m : Nat} (i : (⟨2, ![n, m]⟩ : Shape).Idx) : ix2 (row i) (col i) = i :=
  funext fun a => Fin.ext (by match a with | ⟨0, _⟩ => rfl | ⟨1, _⟩ => rfl)

theorem row_ix2 {n m : Nat} (p : Fin n) (q : Fin m) : row (ix2 p q) = p := rfl
theorem col_ix2 {n m : Nat} (p : Fin n) (q : Fin m) : col (ix2 p q) = q := rfl

/-- The dense layer: entry `(r, c)` is `∑ j, X r j · W j c`. -/
def linear {n k m : Nat} (X : (⟨2, ![n, k]⟩ : Shape).Idx → EReal) (W : (⟨2, ![k, m]⟩ : Shape).Idx → EReal) :
    (⟨2, ![n, m]⟩ : Shape).Idx → EReal :=
  fun i => ∑ j : Fin k, X (ix2 (row i) j) * W (ix2 j (col i))

/-- A bias row added to every row. -/
def addBias {n d : Nat} (A : (⟨2, ![n, d]⟩ : Shape).Idx → EReal) (b : (⟨1, ![d]⟩ : Shape).Idx → EReal) :
    (⟨2, ![n, d]⟩ : Shape).Idx → EReal :=
  fun i => A i + b (ix1 (col i))

/-- The first layer's end: the bias, then the positive part, `z` being the zero both programs write. -/
def biasRelu {n d : Nat} (z : EReal) (A : (⟨2, ![n, d]⟩ : Shape).Idx → EReal) (b : (⟨1, ![d]⟩ : Shape).Idx → EReal) :
    (⟨2, ![n, d]⟩ : Shape).Idx → EReal :=
  fun i => max (addBias A b i) z

/-- A row's maximum, taken from the lower bound `lo` (both programs start it from the same word). -/
def rowMax {n d : Nat} (lo : EReal) (Y : (⟨2, ![n, d]⟩ : Shape).Idx → EReal) (r : Fin n) : EReal :=
  (Finset.univ : Finset (Fin d)).fold max lo (fun j => Y (ix2 r j))

/-- The row-wise logarithm of the softmax as both programs compute it. -/
def logSoftmax {n d : Nat} (lo : EReal) (Y : (⟨2, ![n, d]⟩ : Shape).Idx → EReal) : (⟨2, ![n, d]⟩ : Shape).Idx → EReal :=
  fun i => (Y i - rowMax lo Y (row i)) - Ideal.log (∑ j : Fin d, Ideal.exp (Y (ix2 (row i) j) - rowMax lo Y (row i)))

/-- The maximum of the lower bound with a maximum taken from that bound is the latter. -/
theorem max_lo_rowMax {n d : Nat} (lo : EReal) (Y : (⟨2, ![n, d]⟩ : Shape).Idx → EReal) (r : Fin n) :
    max lo (rowMax lo Y r) = rowMax lo Y r :=
  max_eq_right (Finset.le_fold_max lo |>.mpr (Or.inl le_rfl))

/-- The row-wise logarithm of the softmax at an index depends only on the index's column and on the entries of the
    index's row: two arrays that agree along a row give the same value there. -/
theorem logSoftmax_congr {n n' d : Nat} (lo : EReal) (Y : (⟨2, ![n, d]⟩ : Shape).Idx → EReal) (Y' : (⟨2, ![n', d]⟩ : Shape).Idx → EReal)
    (i : (⟨2, ![n, d]⟩ : Shape).Idx) (i' : (⟨2, ![n', d]⟩ : Shape).Idx) (hcol : col i = col i')
    (h : ∀ k : Fin d, Y (ix2 (row i) k) = Y' (ix2 (row i') k)) : logSoftmax lo Y i = logSoftmax lo Y' i' := by
  have hi : Y i = Y' i' :=
    calc Y i = Y (ix2 (row i) (col i)) := by rw [ix2_row_col]
      _ = Y' (ix2 (row i') (col i)) := h (col i)
      _ = Y' (ix2 (row i') (col i')) := by rw [hcol]
      _ = Y' i' := by rw [ix2_row_col]
  unfold logSoftmax rowMax
  rw [hi]
  simp only [h]

end Cert.Spec

end
-- ==== Proof.LibLayout.lean ====
/-
  Two layout operations of a keep-dims reduction read at an index given by coordinates: a vector of `a` entries
  cast to a column `[a, 1]`, and such a column broadcast along its unit axis to `[a, b]`. Entry `(p, c)` of the
  broadcast is the column's entry `(p, 0)`, and entry `(p, u)` of the column is the vector's entry `p`.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.Payloads.lean ====
/-
  What each kernel body stores, read at one index of its block, on the extended reals.

  The two dense bodies store a block's product with the whole weight matrix: entry `(r, c)` is the sum over the
  shared axis of row `r` of the block times column `c` of the weights. The bias bodies add the one bias row to every
  row of the block; the first then takes the positive part, the second subtracts the row's maximum and the
  logarithm of the row's sum of exponentials — every row by itself, so a block's rows are computed exactly as the
  whole array's rows would be.
-/
import proofs.«182202_j6330781794593_1_alg».proof.Proof.Gen.KernelIdeal.Skeleton
import proofs.«182202_j6330781794593_1_alg».proof.Proof.Spec
import proofs.«182202_j6330781794593_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.Spec Cert.LibLayout
open Idealize.ShloMosaic Idealize.ShloMosaic.ValueIdx

/-! ## The two dense bodies -/

theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product at `(r, c)`: the sum over the 128 shared coordinates of the left block's row `r` times the
    right operand's column `c` (the narrowing of both operands is the identity on the extended reals, and the
    accumulator is the zero word). -/
theorem k0_pay1_apply (x0 : Vec Ideal S5000x128 .f32) (x1 : Vec Ideal S128x128 .f32) (i : S5000x128.Idx) :
    k0_pay1 (F := Ideal) x0 x1 i = ∑ k : Fin 128, x0 (ix2 (row i) k) * x1 (ix2 k (col i)) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = ix2 (row i) k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx i ((ValueIdx.contrEquiv1 dot_S5000x128_S128x128_S5000x128_1_0_0_1_n_n 128 rfl rfl).symm k) = ix2 k (col i) := funext fun a => Fin.ext (by
    match a with
    | ⟨0, _⟩ => exact (rhs0_0 _ _).trans hk
    | ⟨1, _⟩ => exact rhs0_1 _ _)
  rw [el, er]
  rfl

theorem lhs2_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs2_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhs2_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs2_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The block's product at `(r, c)`: the sum over the 128 shared coordinates of the left block's row `r` times the
    right operand's column `c` (the narrowing of both operands is the identity on the extended reals, and the
    accumulator is the zero word). -/
theorem k2_pay1_apply (x0 : Vec Ideal S5000x128 .f32) (x1 : Vec Ideal S128x40 .f32) (i : S5000x40.Idx) :
    k2_pay1 (F := Ideal) x0 x1 i = ∑ k : Fin 128, x0 (ix2 (row i) k) * x1 (ix2 k (col i)) := by
  unfold k2_pay1
  simp only [matmul, shapeCast_self]
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx i ((ValueIdx.contrEquiv1 dot_S5000x128_S128x40_S5000x40_1_0_0_1_n_n 128 rfl rfl).symm k) = ix2 (row i) k := funext fun a => Fin.ext (by
    match a with
    | ⟨0, _⟩ => exact lhs2_0 _ _
    | ⟨1, _⟩ => exact (lhs2_1 _ _).trans hk)
  have er : dot_S5000x128_S128x40_S5000x40_1_0_0_1_n_n.rhsIdx i ((ValueIdx.contrEquiv1 dot_S5000x128_S128x40_S5000x40_1_0_0_1_n_n 128 rfl rfl).symm k) = ix2 k (col i) := funext fun a => Fin.ext (by
    match a with
    | ⟨0, _⟩ => exact (rhs2_0 _ _).trans hk
    | ⟨1, _⟩ => exact rhs2_1 _ _)
  rw [el, er]
  rfl

/-! ## The bias bodies -/

/-- The block with the bias row added, read at an index: the bias row's entry in the index's column. -/
def biased {a b : Nat} (x0 : (⟨2, ![a, b]⟩ : Shape).Idx → EReal) (x1 : (⟨2, ![1, b]⟩ : Shape).Idx → EReal) :
    (⟨2, ![a, b]⟩ : Shape).Idx → EReal := fun i => x0 i + x1 (ix2 (0 : Fin 1) (col i))

/-- The first bias body stores the positive part of the biased block. -/
theorem k1_pay1_apply (x0 : Vec Ideal S5000x128 .f32) (x1 : Vec Ideal S1x128 .f32) (i : S5000x128.Idx) :
    k1_pay1 (F := Ideal) x0 x1 i = max (biased x0 x1 i) (Ideal.ofBits .f32 0x00000000#32) := by
  obtain ⟨p, q, rfl⟩ : ∃ (p : Fin 5000) (q : Fin 128), i = ix2 p q := ⟨i 0, i 1, eq_ix2 i⟩
  unfold k1_pay1 biased
  simp only [maximumf_apply, addf_apply, broadcast_apply, shapeCast_self]
  rw [broadcastTo_1b_ab_apply]
  rfl

/-- The index a lane reduction over the columns reads: row `p`, column `k`. -/
theorem lift_row (p : Fin 5000) (k : Fin 40) : reduces_S5000x40_S5000.lift (ix1 p) k = ix2 p k :=
  funext fun a => Fin.ext (by match a with | ⟨0, _⟩ => rfl | ⟨1, _⟩ => rfl)

/-- A block's row maximum, from the lane reduction: the fold of `max` over the row's 40 entries (`hφ`, `hacc`: the
    reduction's own side conditions, typed as the body's text states them). -/
theorem rowmax_apply (y : Vec Ideal S5000x40 .f32) (p : Fin 5000) (hφ : FKind.Formats .f32)
    (hacc : (0xFF800000#32 : BitVec 32) = 0xFF800000#32) :
    multiReduction (F := Ideal) .maximumf [1] S5000 y 0xFF800000#32 reduces_S5000x40_S5000 hφ hacc (ix1 p)
      = rowMax (Ideal.ofBits .f32 0xFF800000#32) y p := by
  have h := Ideal.multiReduction_maximumf_single y 0xFF800000#32 reduces_S5000x40_S5000 hφ hacc (ix1 p)
  refine h.trans ?_
  unfold rowMax
  have hf : (y ∘ reduces_S5000x40_S5000.lift (ix1 p)) = fun j : Fin 40 => y (ix2 p j) := funext fun k => congrArg y (lift_row p k)
  rw [hf]
  rfl

/-- A block's row sum, from the lane reduction. -/
theorem rowsum_apply (y : Vec Ideal S5000x40 .f32) (p : Fin 5000) (hφ : FKind.Formats .f32)
    (hacc : (0x00000000#32 : BitVec 32) = 0x00000000#32) :
    multiReduction (F := Ideal) .add [1] S5000 y 0x00000000#32 reduces_S5000x40_S5000 hφ hacc (ix1 p)
      = ∑ k : Fin 40, y (ix2 p k) := by
  have h := Ideal.multiReduction_add_single y 0x00000000#32 reduces_S5000x40_S5000 hφ hacc (ix1 p)
  exact h.trans (Finset.sum_congr rfl fun k _ => congrArg y (lift_row p k))

theorem vexp_apply {s : Shape} {φ : FTy} (x : FVec Ideal s φ) (i : s.Idx) : exp x i = Ideal.exp (x i) := rfl
theorem vlog_apply {s : Shape} {φ : FTy} (x : FVec Ideal s φ) (i : s.Idx) : log x i = Ideal.log (x i) := rfl

/-- A block with its row maxima subtracted, read at `(p, q)`. -/
theorem shifted_apply (B : Vec Ideal S5000x40 .f32) (p : Fin 5000) (q : Fin 40) (hφ : FKind.Formats .f32)
    (hacc : (0xFF800000#32 : BitVec 32) = 0xFF800000#32) :
    subf B (broadcastTo S5000x40 (shapeCast S5000x1 (multiReduction (F := Ideal) .maximumf [1] S5000 B 0xFF800000#32
        reduces_S5000x40_S5000 hφ hacc) shapeCasts_S5000_S5000x1) broadcasts_S5000x1_S5000x40) (ix2 p q)
      = B (ix2 p q) - rowMax (Ideal.ofBits .f32 0xFF800000#32) B p := by
  rw [subf_apply, broadcastTo_a1_ab_apply, shapeCast_a_a1_apply, rowmax_apply]

/-- The biased block as the body computes it (both operands through an identity cast, the bias row broadcast down). -/
theorem biased_eq (x0 : Vec Ideal S5000x40 .f32) (x1 : Vec Ideal S1x40 .f32) :
    addf (F := Ideal) (φ := .f32) (shapeCast S5000x40 x0 shapeCasts_S5000x40_S5000x40)
      (broadcastTo S5000x40 (shapeCast S1x40 x1 shapeCasts_S1x40_S1x40) broadcasts_S1x40_S5000x40) = biased x0 x1 := by
  funext j
  obtain ⟨r, s, rfl⟩ : ∃ (r : Fin 5000) (s : Fin 40), j = ix2 r s := ⟨j 0, j 1, eq_ix2 j⟩
  rw [addf_apply, shapeCast_self, shapeCast_self, broadcastTo_1b_ab_apply]
  rfl

/-- The second bias body stores the row-wise logarithm of the softmax of the biased block. -/
theorem k3_pay1_apply (x0 : Vec Ideal S5000x40 .f32) (x1 : Vec Ideal S1x40 .f32) (i : S5000x40.Idx) :
    k3_pay1 (F := Ideal) x0 x1 i = logSoftmax (Ideal.ofBits .f32 0xFF800000#32) (biased x0 x1) i := by
  obtain ⟨p, q, rfl⟩ : ∃ (p : Fin 5000) (q : Fin 40), i = ix2 p q := ⟨i 0, i 1, eq_ix2 i⟩
  unfold k3_pay1
  simp only [biased_eq]
  rw [subf_apply, shifted_apply, broadcastTo_a1_ab_apply, vlog_apply, shapeCast_a_a1_apply, rowsum_apply]
  unfold logSoftmax
  refine congrArg₂ (fun a s : EReal => a - Ideal.log s) rfl (Finset.sum_congr rfl fun k _ => ?_)
  rw [vexp_apply, shifted_apply]

end Cert.KernelIdeal.Payload

end
-- ==== Proof.Region0.lean ====
/-
  Region 0: a dense layer over twenty blocks of 5000 rows. Point `t` multiplies rows `5000 t … 5000 t + 4999` of the
  left array by the whole weight matrix and writes the product back to the same rows of the result, so after the
  twenty points the result array is the product of the whole left array with the weights: entry `(r, c)` is the sum
  over the shared axis of the left array's row `r` times the weights' column `c`.
-/
import proofs.«182202_j6330781794593_1_alg».proof.Proof.Gen.KernelIdeal.Frame
import proofs.«182202_j6330781794593_1_alg».proof.Proof.Payloads

set_option maxRecDepth 16384

noncomputable section

namespace Cert.KernelIdeal.Region0

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat Cfg Window)

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-- The left array and the weights, as the region finds them. -/
abbrev lhsArr (c : Dev nD) : (⟨2, ![100000, 128]⟩ : Shape).Idx → EReal := V c main_arg0
abbrev rhsArr (c : Dev nD) : (⟨2, ![128, 128]⟩ : Shape).Idx → EReal := V c main_arg2

/-- The printed index maps over the grid: the left and result windows move down by one block per point and the
    weights' window stays. -/
theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- What point `t` writes back is block `t` of the product of the whole arrays. -/
theorem flushed (c : Dev nD) (t : Fin cfg0.N) :
    (dat0 V c).flushed 2 t = ((cfg0.win 2).blk t).view.read (Elt Ideal) (linear (lhsArr V c) (rhsArr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4⟩ := idx t
  funext j
  refine (k0_pay1_apply _ _ j).trans ?_
  show _ = linear (lhsArr V c) (rhsArr V c) (((cfg0.win 2).blk t).view.emb j)
  unfold linear
  refine Finset.sum_congr rfl fun k _ => ?_
  show lhsArr V c (((cfg0.win 0).blk t).view.emb (ix2 (row j) k)) * rhsArr V c (((cfg0.win 1).blk t).view.emb (ix2 k (col j)))
      = lhsArr V c (ix2 (row (((cfg0.win 2).blk t).view.emb j)) k) * rhsArr V c (ix2 k (col (((cfg0.win 2).blk t).view.emb j)))
  have h0 : ((cfg0.win 0).blk t).view.emb (ix2 (row j) k) = ix2 (row (((cfg0.win 2).blk t).view.emb j)) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (col j)) = ix2 k (col (((cfg0.win 2).blk t).view.emb j)) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every block of 5000 rows is some grid point's. -/
theorem idx_onto : ∀ q : Fin 20, ∃ t : Fin cfg0.N, win0_2.index t = ![q.val, 0] :=
  (by decide +kernel : ∀ q : Fin 20, ∃ t : Fin grid0.N, win0_2.index t = ![q.val, 0])

/-- The twenty blocks of 5000 rows tile the 100000 rows: row `r` lies in block `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: one function of the arrays the region was entered with. -/
theorem value (c : Dev nD) : (dat0 V c).arrAt 2 cfg0.N = linear (lhsArr V c) (rhsArr V c) :=
  (dat0 V c).arrAt_eq_of_cover 2 (linear (lhsArr V c) (rhsArr V c)) (fun t _ => flushed V c t) cover

end Cert.KernelIdeal.Region0

end
-- ==== Proof.Region1.lean ====
/-
  Region 1: the bias and the positive part, over twenty blocks of 5000 rows. Every entry of the result depends on
  the same entry of the input and on the bias row's entry in its column, so the blocks' results are the blocks of
  one function of the whole input array and the bias row.
-/
import proofs.«182202_j6330781794593_1_alg».proof.Proof.Gen.KernelIdeal.Frame
import proofs.«182202_j6330781794593_1_alg».proof.Proof.Payloads

set_option maxRecDepth 16384

noncomputable section

namespace Cert.KernelIdeal.Region1

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat Cfg Window)

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-- The input array and the bias row (a `1 × 128` array), as the region finds them. -/
abbrev inArr (c : Dev nD) : (⟨2, ![100000, 128]⟩ : Shape).Idx → EReal := V c main_v45
abbrev biasRow (c : Dev nD) : (⟨2, ![1, 128]⟩ : Shape).Idx → EReal := V c main_v46

/-- The region's result as one function of its whole input array and the bias row: the positive part of their sum. -/
abbrev result (c : Dev nD) : (⟨2, ![100000, 128]⟩ : Shape).Idx → EReal :=
  fun i => max (biased (inArr V c) (biasRow V c) i) (Ideal.ofBits .f32 0x00000000#32)

/-- The printed index maps over the grid: the input and result windows move down by one block per point and the
    bias row's window stays. -/
theorem idx : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- What point `t` writes back is block `t` of one function of the whole arrays. -/
theorem flushed (c : Dev nD) (t : Fin cfg1.N) :
    (dat1 V c).flushed 2 t = ((cfg1.win 2).blk t).view.read (Elt Ideal) ((result V c)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4⟩ := idx t
  funext j
  show k1_pay1 (F := Ideal) (iblk1 V c 0 t) (iblk1 V c 1 t) j = _
  refine (k1_pay1_apply _ _ j).trans ?_
  show max (inArr V c (((cfg1.win 0).blk t).view.emb j) + biasRow V c (((cfg1.win 1).blk t).view.emb (ix2 (0 : Fin 1) (col j)))) (Ideal.ofBits .f32 0x00000000#32)
      = max (inArr V c (((cfg1.win 2).blk t).view.emb j) + biasRow V c (ix2 (0 : Fin 1) (col (((cfg1.win 2).blk t).view.emb j)))) (Ideal.ofBits .f32 0x00000000#32)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (col j)) = ix2 (0 : Fin 1) (col (((cfg1.win 2).blk t).view.emb j)) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the result array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every block of 5000 rows is some grid point's. -/
theorem idx_onto : ∀ q : Fin 20, ∃ t : Fin cfg1.N, win1_2.index t = ![q.val, 0] :=
  (by decide +kernel : ∀ q : Fin 20, ∃ t : Fin grid1.N, win1_2.index t = ![q.val, 0])

/-- The twenty blocks of 5000 rows tile the 100000 rows: row `r` lies in block `r / 5000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region: one function of the arrays the region was entered with. -/
theorem value (c : Dev nD) : (dat1 V c).arrAt 2 cfg1.N = (result V c) :=
  (dat1 V c).arrAt_eq_of_cover 2 ((result V c)) (fun t _ => flushed V c t) cover

end Cert.KernelIdeal.Region1

end
-- ==== Proof.Region2.lean ====
/-
  Region 2: a dense layer over twenty blocks of 5000 rows. Point `t` multiplies rows `5000 t … 5000 t + 4999` of the
  left array by the whole weight matrix and writes the product back to the same rows of the result, so after the
  twenty points the result array is the product of the whole left array with the weights: entry `(r, c)` is the sum
  over the shared axis of the left array's row `r` times the weights' column `c`.
-/
import proofs.«182202_j6330781794593_1_alg».proof.Proof.Gen.KernelIdeal.Frame
import proofs.«182202_j6330781794593_1_alg».proof.Proof.Payloads

set_option maxRecDepth 16384

noncomputable section

namespace Cert.KernelIdeal.Region2

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat Cfg Window)

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-- The left array and the weights, as the region finds them. -/
abbrev lhsArr (c : Dev nD) : (⟨2, ![100000, 128]⟩ : Shape).Idx → EReal := V c main_v47
abbrev rhsArr (c : Dev nD) : (⟨2, ![128, 40]⟩ : Shape).Idx → EReal := V c main_arg4

/-- The printed index maps over the grid: the left and result windows move down by one block per point and the
    weights' window stays. -/
theorem idx : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- What point `t` writes back is block `t` of the product of the whole arrays. -/
theorem flushed (c : Dev nD) (t : Fin cfg2.N) :
    (dat2 V c).flushed 2 t = ((cfg2.win 2).blk t).view.read (Elt Ideal) (linear (lhsArr V c) (rhsArr V c)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x40) hz]
  obtain ⟨e0, e1, e2, e3, e4⟩ := idx t
  funext j
  refine (k2_pay1_apply _ _ j).trans ?_
  show _ = linear (lhsArr V c) (rhsArr V c) (((cfg2.win 2).blk t).view.emb j)
  unfold linear
  refine Finset.sum_congr rfl fun k _ => ?_
  show lhsArr V c (((cfg2.win 0).blk t).view.emb (ix2 (row j) k)) * rhsArr V c (((cfg2.win 1).blk t).view.emb (ix2 k (col j)))
      = lhsArr V c (ix2 (row (((cfg2.win 2).blk t).view.emb j)) k) * rhsArr V c (ix2 k (col (((cfg2.win 2).blk t).view.emb j)))
  have h0 : ((cfg2.win 0).blk t).view.emb (ix2 (row j) k) = ix2 (row (((cfg2.win 2).blk t).view.emb j)) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (ix2 k (col j)) = ix2 k (col (((cfg2.win 2).blk t).view.emb j)) := by
    funext a; apply Fin.ext
    match a with
    | ⟨0, _⟩ => show win2_1.index t (0 : Fin 2) * 128 + 1 * k.val = k.val; omega
    | ⟨1, _⟩ => show win2_1.index t (1 : Fin 2) * 40 + 1 * (j 1).val = win2_2.index t (1 : Fin 2) * 40 + 1 * (j 1).val; omega
  rw [h0, h1]

/-- An index of the result array is in point `t`'s block iff each coordinate is in the block's range on its axis. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v48).slice (win2_2.rect t)).set ↔ _
  rw [View.set_slice_whole, Rect.mem_set_unit]
  exact Iff.rfl

/-- Every block of 5000 rows is some grid point's. -/
theorem idx_onto : ∀ q : Fin 20, ∃ t : Fin cfg2.N, win2_2.index t = ![q.val, 0] :=
  (by decide +kernel : ∀ q : Fin 20, ∃ t : Fin grid2.N, win2_2.index t = ![q.val, 0])

/-- The twenty blocks of 5000 rows tile the 100000 rows: row `r` lies in block `r / 5000`. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- The result array after the region: one function of the arrays the region was entered with. -/
theorem value (c : Dev nD) : (dat2 V c).arrAt 2 cfg2.N = linear (lhsArr V c) (rhsArr V c) :=
  (dat2 V c).arrAt_eq_of_cover 2 (linear (lhsArr V c) (rhsArr V c)) (fun t _ => flushed V c t) cover

end Cert.KernelIdeal.Region2

end
-- ==== Proof.Region3.lean ====
/-
  Region 3: the bias and the row-wise logarithm of the softmax, over twenty blocks of 5000 rows. Every row of the
  result depends on the same row of the input and on the bias row only, and a block holds whole rows, so the
  blocks' results are the blocks of one function of the whole input array and the bias row.
-/
import proofs.«182202_j6330781794593_1_alg».proof.Proof.Gen.KernelIdeal.Frame
import proofs.«182202_j6330781794593_1_alg».proof.Proof.Payloads

set_option maxRecDepth 16384

noncomputable section

namespace Cert.KernelIdeal.Region3

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat Cfg Window)

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-- The input array and the bias row (a `1 × 40` array), as the region finds them. -/
abbrev inArr (c : Dev nD) : (⟨2, ![100000, 40]⟩ : Shape).Idx → EReal := V c main_v61
abbrev biasRow (c : Dev nD) : (⟨2, ![1, 40]⟩ : Shape).Idx → EReal := V c main_v62

/-- The printed index maps over the grid: the input and result windows move down by one block per point and the
    bias row's window stays. -/
theorem idx : ∀ t : Fin cfg3.N, win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 :=
  (by decide +kernel : ∀ t : Fin grid3.N, _)

/-- What point `t` writes back is block `t` of one function of the whole arrays. -/
theorem flushed (c : Dev nD) (t : Fin cfg3.N) :
    (dat3 V c).flushed 2 t = ((cfg3.win 2).blk t).view.read (Elt Ideal) (logSoftmax (Ideal.ofBits .f32 0xFF800000#32) (biased (inArr V c) (biasRow V c))) := by
  show (cfg3.win 2).cut (grid3.coords t) ((dat3 V c).after 2 t) = _
  rw [after3_2]
  unfold out3_2
  rw [View.canon_unit_zero hz]
  simp only [View.ld_unit_zero (S := S5000x40) hz, View.ld_unit_zero (S := S1x40) hz]
  obtain ⟨e0, e1, e2, e3, e4⟩ := idx t
  funext j
  show k3_pay1 (F := Ideal) (iblk3 V c 0 t) (iblk3 V c 1 t) j = _
  refine (k3_pay1_apply _ _ j).trans ?_
  show logSoftmax _ (biased (iblk3 V c 0 t) (iblk3 V c 1 t)) j
      = logSoftmax _ (biased (inArr V c) (biasRow V c)) (((cfg3.win 2).blk t).view.emb j)
  refine logSoftmax_congr _ _ _ _ _ (Fin.ext ?_) (fun k => ?_)
  · show (j 1).val = win3_2.index t (1 : Fin 2) * 40 + 1 * (j 1).val; omega
  · show inArr V c (((cfg3.win 0).blk t).view.emb (ix2 (row j) k)) + biasRow V c (((cfg3.win 1).blk t).view.emb (ix2 (0 : Fin 1) k))
        = inArr V c (ix2 (row (((cfg3.win 2).blk t).view.emb j)) k) + biasRow V c (ix2 (0 : Fin 1) k)
    have h0 : ((cfg3.win 0).blk t).view.emb (ix2 (row j) k) = ix2 (row (((cfg3.win 2).blk t).view.emb j)) k := by
      funext a; apply Fin.ext
      match a with
      | ⟨0, _⟩ => show win3_0.index t (0 : Fin 2) * 5000 + 1 * (j 0).val = win3_2.index t (0 : Fin 2) * 5000 + 1 * (j 0).val; omega
      | ⟨1, _⟩ => show win3_0.index t (1 : Fin 2) * 40 + 1 * k.val = k.val; omega
    have h1 : ((cfg3.win 1).blk t).view.emb (ix2 (0 : Fin 1) k) = ix2 (0 : Fin 1) k := by
      funext a; apply Fin.ext
      match a with
      | ⟨0, _⟩ => show win3_1.index t (0 : Fin 2) * 1 + 1 * 0 = 0; omega
      | ⟨1, _⟩ => show win3_1.index t (1 : Fin 2) * 40 + 1 * k.val = k.val; omega
    rw [h0, h1]

/-- An index of the result array is in point `t`'s block iff each coordinate is in the block's range on its axis. -/
theorem mem_blk (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v63).slice (win3_2.rect t)).set ↔ _
  rw [View.set_slice_whole, Rect.mem_set_unit]
  exact Iff.rfl

/-- Every block of 5000 rows is some grid point's. -/
theorem idx_onto : ∀ q : Fin 20, ∃ t : Fin cfg3.N, win3_2.index t = ![q.val, 0] :=
  (by decide +kernel : ∀ q : Fin 20, ∃ t : Fin grid3.N, win3_2.index t = ![q.val, 0])

/-- The twenty blocks of 5000 rows tile the 100000 rows: row `r` lies in block `r / 5000`. -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega

/-- The result array after the region: one function of the arrays the region was entered with. -/
theorem value (c : Dev nD) : (dat3 V c).arrAt 2 cfg3.N = logSoftmax (Ideal.ofBits .f32 0xFF800000#32) (biased (inArr V c) (biasRow V c)) :=
  (dat3 V c).arrAt_eq_of_cover 2 (logSoftmax (Ideal.ofBits .f32 0xFF800000#32) (biased (inArr V c) (biasRow V c))) (fun t _ => flushed V c t) cover

end Cert.KernelIdeal.Region3

end
-- ==== Proof.RefStages.lean ====
/-
  The reference's layer stages, each as one function of the stage before it.

  Its two matrix products are the dense layers' sums; its bias steps add the bias row read in each entry's column
  (a row broadcast down the rows); its `relu` is the maximum with the zero word; and its `log_softmax` subtracts, in
  each row, the row's maximum and then the logarithm of the row's sum of exponentials — the maximum is taken from
  the lower bound and then once more against that bound, which changes nothing, and the sum starts from the zero
  word, which is the number zero.
-/
import proofs.«182202_j6330781794593_1_alg».proof.Proof.RefRead
import proofs.«182202_j6330781794593_1_alg».proof.Proof.Spec
import Idealize.ShloMosaic.PureOps.Reduce

set_option maxRecDepth 16384

noncomputable section

namespace Cert.ReferenceIdeal.Stages

open Cert.ReferenceIdeal Cert.ReferenceIdeal.Gen Cert.ReferenceIdeal.ReadP Cert.Spec
open Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x40, .f32⟩ : BufTy).Contents (Elt Ideal)) (x5 : (⟨S40, .f32⟩ : BufTy).Contents (Elt Ideal))

/-- The first matrix product is the dense layer of the input and the first weights. -/
theorem v32_eq : val_main_v32 (F := Ideal) x0 x2 = linear x0 x2 := by
  funext i
  rw [val_main_v32_apply]
  unfold linear
  refine Finset.sum_congr rfl fun k _ => ?_
  have el : lidx_main_v32 i k = ix2 (row i) k := funext fun a => Fin.ext (by match a with | ⟨0, _⟩ => rfl | ⟨1, _⟩ => rfl)
  have er : ridx_main_v32 i k = ix2 k (col i) := funext fun a => Fin.ext (by match a with | ⟨0, _⟩ => rfl | ⟨1, _⟩ => rfl)
  rw [el, er]

/-- The first layer's end: the bias row added in each column, then the maximum with the zero word. -/
theorem v49_eq : val_main_v49 (F := Ideal) x0 x1 x2 x3
    = biasRelu (Ideal.ofBits .f32 0x00000000#32) (val_main_v45 (F := Ideal) x0 x1 x2) x3 := by
  funext i
  rw [val_main_v49_apply, val_main_v48_apply, val_main_v47_apply, val_main_v46_apply, val_main_call1_v0_apply, val_main_call1_cst_apply]
  unfold biasRelu addBias
  have e : idx_main_v46 (idx_main_v47 i) = ix1 (col i) := funext fun a => Fin.ext (by match a with | ⟨0, _⟩ => rfl)
  rw [e]
  rfl

/-- The second matrix product is the dense layer of the first layer's result and the second weights. -/
theorem v50_eq : val_main_v50 (F := Ideal) x0 x1 x2 x3 x4 = linear (val_main_v49 (F := Ideal) x0 x1 x2 x3) x4 := by
  funext i
  rw [val_main_v50_apply]
  unfold linear
  refine Finset.sum_congr rfl fun k _ => ?_
  have el : lidx_main_v50 i k = ix2 (row i) k := funext fun a => Fin.ext (by match a with | ⟨0, _⟩ => rfl | ⟨1, _⟩ => rfl)
  have er : ridx_main_v50 i k = ix2 k (col i) := funext fun a => Fin.ext (by match a with | ⟨0, _⟩ => rfl | ⟨1, _⟩ => rfl)
  rw [el, er]

/-- The second layer's sum with its bias row added in each column. -/
theorem v66_eq : val_main_v66 (F := Ideal) x0 x1 x2 x3 x4 x5 = addBias (val_main_v63 (F := Ideal) x0 x1 x2 x3 x4) x5 := by
  funext i
  rw [val_main_v66_apply, val_main_v65_apply, val_main_v64_apply]
  unfold addBias
  have e : idx_main_v64 (idx_main_v65 i) = ix1 (col i) := funext fun a => Fin.ext (by match a with | ⟨0, _⟩ => rfl)
  rw [e]
  rfl

/-- The lower bound both programs start a row's maximum from. -/
abbrev lo : EReal := Ideal.ofBits .f32 0xFF800000#32

theorem lift_row (hR : S100000x40.Reduces [1] S100000) (r : Fin 100000) (k : Fin 40) : hR.lift (ix1 r) k = ix2 r k :=
  funext fun a => Fin.ext (by match a with | ⟨0, _⟩ => rfl | ⟨1, _⟩ => rfl)

/-- A row's maximum from the host's reduction over the columns: the fold of `max` over the row's 40 entries. -/
theorem hostRowMax (Y : (⟨S100000x40, .f32⟩ : BufTy).Contents (Elt Ideal)) (r : Fin 100000) :
    Host.reduce (FloatOps.maximumf (F := Ideal) (φ := .f32)) Y (val_main_call2_cst (F := Ideal)) reducesTo_S100000x40_S100000_d1 h_S_ (ix1 r)
      = rowMax lo Y r := by
  have hR : S100000x40.Reduces [1] S100000 := by decide
  have h := Host.reduce_eq_fold_single (FloatOps.maximumf (F := Ideal) (φ := .f32)) Y (val_main_call2_cst (F := Ideal)) reducesTo_S100000x40_S100000_d1 hR h_S_ (ix1 r)
  refine h.trans ?_
  unfold rowMax
  have hf : (Y ∘ hR.lift (ix1 r)) = fun j : Fin 40 => Y (ix2 r j) := funext fun k => congrArg Y (lift_row hR r k)
  rw [hf]
  rfl

/-- The row's maximum as the reference carries it to every entry of the row: taken from the lower bound, then once
    more against that bound. -/
theorem v4_eq (i : S100000x40.Idx) :
    val_main_call2_v4 (F := Ideal) x0 x1 x2 x3 x4 x5 i = rowMax lo (val_main_v66 (F := Ideal) x0 x1 x2 x3 x4 x5) (row i) := by
  rw [val_main_call2_v4_apply, val_main_call2_v3_apply, val_main_call2_v2_apply, val_main_call2_v1_apply, val_main_call2_cst_0_apply]
  have e : idx_main_call2_v3 (idx_main_call2_v4 i) = ix1 (row i) := funext fun a => Fin.ext (by match a with | ⟨0, _⟩ => rfl)
  rw [e]
  unfold val_main_call2_v0
  rw [hostRowMax]
  exact max_lo_rowMax _ _ _

/-- The shifted entry. -/
theorem v5_eq (i : S100000x40.Idx) :
    val_main_call2_v5 (F := Ideal) x0 x1 x2 x3 x4 x5 i = val_main_v66 (F := Ideal) x0 x1 x2 x3 x4 x5 i - rowMax lo (val_main_v66 (F := Ideal) x0 x1 x2 x3 x4 x5) (row i) := by
  rw [val_main_call2_v5_apply, v4_eq]
  rfl

/-- The logarithm of the row's sum of exponentials of the shifted entries, as the reference carries it to every
    entry of the row (its sum starts from the zero word, which is the number zero). -/
theorem v10_eq (i : S100000x40.Idx) :
    val_main_call2_v10 (F := Ideal) x0 x1 x2 x3 x4 x5 i
      = Ideal.log (∑ k : Fin 40, Ideal.exp (val_main_v66 (F := Ideal) x0 x1 x2 x3 x4 x5 (ix2 (row i) k) - rowMax lo (val_main_v66 (F := Ideal) x0 x1 x2 x3 x4 x5) (row i))) := by
  have e : idx_main_call2_v8 (idx_main_call2_v10 i) = ix1 (row i) := funext fun a => Fin.ext (by match a with | ⟨0, _⟩ => rfl)
  refine (val_main_call2_v10_apply x0 x1 x2 x3 x4 x5 i).trans ?_
  refine (val_main_call2_v9_apply x0 x1 x2 x3 x4 x5 _).trans ?_
  rw [Ideal.hostUnary_log_def]
  refine congrArg Ideal.log ?_
  refine (val_main_call2_v8_apply x0 x1 x2 x3 x4 x5 _).trans ?_
  rw [e]
  refine (val_main_call2_v7_apply x0 x1 x2 x3 x4 x5 _).trans ?_
  rw [val_main_call2_cst_1_apply, Ideal.ofBits_def, Ideal.ofBits_zero_f32, zero_add]
  refine Finset.sum_congr rfl fun k _ => ?_
  have ek : idx_main_call2_v7 (ix1 (row i)) k = ix2 (row i) k :=
    funext fun a => Fin.ext (by match a with | ⟨0, _⟩ => rfl | ⟨1, _⟩ => rfl)
  rw [ek]
  refine (val_main_call2_v6_apply x0 x1 x2 x3 x4 x5 _).trans ?_
  rw [Ideal.hostUnary_exp_def, v5_eq, row_ix2]

/-- The reference's result is the row-wise logarithm of the softmax of the second layer's biased sum. -/
theorem v67_eq : val_main_v67 (F := Ideal) x0 x1 x2 x3 x4 x5 = logSoftmax lo (val_main_v66 (F := Ideal) x0 x1 x2 x3 x4 x5) := by
  funext i
  refine (val_main_v67_apply x0 x1 x2 x3 x4 x5 i).trans ?_
  rw [Ideal.subf_def, v5_eq, v10_eq]
  unfold logSoftmax
  rfl

end Cert.ReferenceIdeal.Stages

end
-- ==== Proof.Chain.lean ====
/-
  The contents of the kernel program's buffers at each segment boundary, as the reference's own stages of the
  launch arguments.

  Both programs build the edge lists, the degrees and the normalisation weights by the same host operations, so at
  the first region's entry those buffers hold the reference's stages. Each dense region leaves the dense layer of
  its entry arrays, which is the reference's matrix product; each stretch after a dense region gathers, scales and
  scatter-adds exactly as the reference does; the bias regions leave the reference's `relu` and `log_softmax`
  stages. Following the nine segments in order gives the result array as the reference's last stage.
-/
import proofs.«182202_j6330781794593_1_alg».proof.Proof.Gen.KernelIdeal.Frame
import proofs.«182202_j6330781794593_1_alg».proof.Proof.Carry
import proofs.«182202_j6330781794593_1_alg».proof.Proof.Region0
import proofs.«182202_j6330781794593_1_alg».proof.Proof.Region1
import proofs.«182202_j6330781794593_1_alg».proof.Proof.Region2
import proofs.«182202_j6330781794593_1_alg».proof.Proof.Region3
import proofs.«182202_j6330781794593_1_alg».proof.Proof.RefStages
import Idealize.ShloMosaic.Lib.StableHlo.Run
import Idealize.ShloMosaic.Lib.ValueLayout

set_option maxRecDepth 16384

noncomputable section

namespace Cert.KernelIdeal.Chain

open Cert.KernelIdeal Cert.KernelIdeal.Gen Cert.KernelIdeal.Carry Cert.Spec
open Idealize.ShloMosaic Idealize.ShloMosaic.TcCoe Idealize.ShloMosaic.ValueIdx Idealize.ShloMosaic.StableHlo Idealize.SL.Sem

/-! ## The host stretches, for any float family -/

section Host
variable {F : FTy → Type} [FloatOps F]
variable (m : (ℓ : Loc nD τ sig) → Buf (Elt F) ℓ) (ρ : Dev nD → PrngReg) (c : Dev nD)

/-- After the first stretch: the two edge lists with the self loops appended, the test "degree above zero", the
    inverse square root of the degree, and the zero the `where` falls back to. -/
theorem W1_v3 : W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  generalize hV : W0 m ρ c = V
  after_results
  (try simp only [TRef.ofBuf, TRef.toBuf, cast_eq])
  all_goals subst hV
  all_goals (try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_cst_2, Cert.ReferenceIdeal.ReadP.val_main_v13, Cert.ReferenceIdeal.ReadP.val_main_v14, Cert.ReferenceIdeal.ReadP.val_main_v15, Cert.ReferenceIdeal.ReadP.val_main_cst_3])
  all_goals rfl
theorem W1_v6 : W1 m ρ c (Proc.devRef .tc main_v6) = Cert.ReferenceIdeal.ReadP.val_main_v6 (F := F) (m ((c : Thread nD τ).loc main_arg1)) := by
  show StableHlo.after hostOps0 (W0 m ρ c) (Proc.devRef .tc main_v6) = _
  generalize hV : W0 m ρ c = V
  after_results
  (try simp only [TRef.ofBuf, TRef.toBuf, cast_eq])
  all_goals subst hV
  all_goals (try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_cst_2, Cert.ReferenceIdeal.ReadP.val_main_v13, Cert.ReferenceIdeal.ReadP.val_main_v14, Cert.ReferenceIdeal.ReadP.val_main_v15, Cert.ReferenceIdeal.ReadP.val_main_cst_3])
  all_goals rfl
set_option maxHeartbeats 4000000 in
theorem W1_v12 : W1 m ρ c (Proc.devRef .tc main_v12) = Cert.ReferenceIdeal.ReadP.val_main_v12 (F := F) (m ((c : Thread nD τ).loc main_arg1)) := by
  show StableHlo.after hostOps0 (W0 m ρ c) (Proc.devRef .tc main_v12) = _
  generalize hV : W0 m ρ c = V
  after_results
  (try simp only [TRef.ofBuf, TRef.toBuf, cast_eq])
  all_goals subst hV
  all_goals (try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_cst_2, Cert.ReferenceIdeal.ReadP.val_main_v13, Cert.ReferenceIdeal.ReadP.val_main_v14, Cert.ReferenceIdeal.ReadP.val_main_v15, Cert.ReferenceIdeal.ReadP.val_main_cst_3])
  all_goals rfl
set_option maxHeartbeats 4000000 in
theorem W1_v15 : W1 m ρ c (Proc.devRef .tc main_v15) = Cert.ReferenceIdeal.ReadP.val_main_v15 (F := F) (m ((c : Thread nD τ).loc main_arg1)) := by
  show StableHlo.after hostOps0 (W0 m ρ c) (Proc.devRef .tc main_v15) = _
  generalize hV : W0 m ρ c = V
  after_results
  (try simp only [TRef.ofBuf, TRef.toBuf, cast_eq])
  all_goals subst hV
  all_goals (try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_cst_2, Cert.ReferenceIdeal.ReadP.val_main_v13, Cert.ReferenceIdeal.ReadP.val_main_v14, Cert.ReferenceIdeal.ReadP.val_main_v15, Cert.ReferenceIdeal.ReadP.val_main_cst_3])
  all_goals rfl
theorem W1_cst_3 : W1 m ρ c (Proc.devRef .tc main_cst_3) = Cert.ReferenceIdeal.ReadP.val_main_cst_3 (F := F) := by
  show StableHlo.after hostOps0 (W0 m ρ c) (Proc.devRef .tc main_cst_3) = _
  generalize hV : W0 m ρ c = V
  after_results
  (try simp only [TRef.ofBuf, TRef.toBuf, cast_eq])
  all_goals subst hV
  all_goals (try simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_cst_2, Cert.ReferenceIdeal.ReadP.val_main_v13, Cert.ReferenceIdeal.ReadP.val_main_v14, Cert.ReferenceIdeal.ReadP.val_main_v15, Cert.ReferenceIdeal.ReadP.val_main_cst_3])
  all_goals rfl

set_option maxHeartbeats 4000000 in
/-- After the `where`: the inverse square root of the degree where the degree is positive, else zero. -/
theorem W2_v16 : W2 m ρ c (Proc.devRef .tc main_v16) = Cert.ReferenceIdeal.ReadP.val_main_v16 (F := F) (m ((c : Thread nD τ).loc main_arg1)) := by
  show StableHlo.after hostOps0_1 (W1 m ρ c) (Proc.devRef .tc main_v16) = _
  generalize hV : W1 m ρ c = V
  after_results_simp
  (try simp only [TRef.ofBuf, TRef.toBuf, cast_eq])
  all_goals subst hV
  rw [W1_v12, W1_v15, W1_cst_3]
  all_goals (try simp only [Cert.ReferenceIdeal.ReadP.val_main_call0_v0, Cert.ReferenceIdeal.ReadP.val_main_call0_v1, Cert.ReferenceIdeal.ReadP.val_main_v16])
  all_goals rfl

set_option maxHeartbeats 4000000 in
/-- At the first region's entry: each edge's weight, the product of its two end points' factors. -/
theorem W3_v31 : W3 m ρ c (Proc.devRef .tc main_v31) = Cert.ReferenceIdeal.ReadP.val_main_v31 (F := F) (m ((c : Thread nD τ).loc main_arg1)) := by
  show StableHlo.after hostOps0_2 (W2 m ρ c) (Proc.devRef .tc main_v31) = _
  generalize hV : W2 m ρ c = V
  after_results_simp
  (try simp only [TRef.ofBuf, TRef.toBuf, cast_eq])
  all_goals subst hV
  rw [W2_v16, W2_main_v3, W2_main_v6, W1_v3, W1_v6]
  all_goals (try simp only [Cert.ReferenceIdeal.ReadP.val_main_c, Cert.ReferenceIdeal.ReadP.val_main_v17, Cert.ReferenceIdeal.ReadP.val_main_v18, Cert.ReferenceIdeal.ReadP.val_main_c_4, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_v23, Cert.ReferenceIdeal.ReadP.val_main_c_5, Cert.ReferenceIdeal.ReadP.val_main_v24, Cert.ReferenceIdeal.ReadP.val_main_v25, Cert.ReferenceIdeal.ReadP.val_main_c_6, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30, Cert.ReferenceIdeal.ReadP.val_main_v31])
  all_goals rfl

theorem W3_v3 : W3 m ρ c (Proc.devRef .tc main_v3) = Cert.ReferenceIdeal.ReadP.val_main_v3 (F := F) (m ((c : Thread nD τ).loc main_arg1)) := (W3_main_v3 m ρ c).trans (W1_v3 m ρ c)
theorem W3_v6 : W3 m ρ c (Proc.devRef .tc main_v6) = Cert.ReferenceIdeal.ReadP.val_main_v6 (F := F) (m ((c : Thread nD τ).loc main_arg1)) := (W3_main_v6 m ρ c).trans (W1_v6 m ρ c)

set_option maxHeartbeats 4000000 in
/-- The stretch after the first dense region: gather the rows of that region's result `A` by source node, scale
    each by the edge's weight, and add them up by target node — the reference's operations on the same edge lists. -/
theorem W5_v45 (A : (⟨Cert.ReferenceIdeal.S100000x128, .f32⟩ : BufTy).Contents (Elt F)) (hA : W4 m ρ c (Proc.devRef .tc main_v32) = A) :
    W5 m ρ c (Proc.devRef .tc main_v45)
      = Host.scatterAdd Cert.ReferenceIdeal.scatter_S100000x128_S1700000x1_S1700000x128_1_0_0_1 (Cert.ReferenceIdeal.ReadP.val_main_v43 (F := F)) (Cert.ReferenceIdeal.ReadP.val_main_v44 (F := F) (m ((c : Thread nD τ).loc main_arg1)))
          (mulf (Host.gather Cert.ReferenceIdeal.gather_S100000x128_S1700000x1_S1700000x128_1_0_n_n_0_1_1128 A (Cert.ReferenceIdeal.ReadP.val_main_v38 (F := F) (m ((c : Thread nD τ).loc main_arg1)))) (Cert.ReferenceIdeal.ReadP.val_main_v41 (F := F) (m ((c : Thread nD τ).loc main_arg1)))) := by
  show StableHlo.after hostOps1 (W4 m ρ c) (Proc.devRef .tc main_v45) = _
  generalize hV : W4 m ρ c = V
  after_results_simp
  (try simp only [TRef.ofBuf, TRef.toBuf, cast_eq])
  all_goals subst hV
  rw [hA, W4_main_v3, W4_main_v6, W4_main_v31, W3_v3, W3_v6, W3_v31]
  all_goals (try simp only [Cert.ReferenceIdeal.ReadP.val_main_v32, Cert.ReferenceIdeal.ReadP.val_main_c_7, Cert.ReferenceIdeal.ReadP.val_main_v33, Cert.ReferenceIdeal.ReadP.val_main_v34, Cert.ReferenceIdeal.ReadP.val_main_c_8, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_cst_9, Cert.ReferenceIdeal.ReadP.val_main_v43, Cert.ReferenceIdeal.ReadP.val_main_v44, Cert.ReferenceIdeal.ReadP.val_main_v45, Cert.ReferenceIdeal.ReadP.val_main_v46, Cert.ReferenceIdeal.ReadP.val_main_v47, Cert.ReferenceIdeal.ReadP.val_main_v48, Cert.ReferenceIdeal.ReadP.val_main_call1_cst, Cert.ReferenceIdeal.ReadP.val_main_call1_v0, Cert.ReferenceIdeal.ReadP.val_main_v49])
  all_goals rfl

/-- The first bias vector as a one-row array. -/
theorem W5_v46 : W5 m ρ c (Proc.devRef .tc main_v46) = shapeCast S1x128 (m ((c : Thread nD τ).loc main_arg3)) shapeCasts_S128_S1x128 := by
  show StableHlo.after hostOps1 (W4 m ρ c) (Proc.devRef .tc main_v46) = _
  generalize hV : W4 m ρ c = V
  after_results_simp
  (try simp only [TRef.ofBuf, TRef.toBuf, cast_eq])
  all_goals subst hV
  rw [W4_main_arg3, W3_main_arg3]
  all_goals rfl

set_option maxHeartbeats 4000000 in
/-- The stretch after the second dense region, the same on that region's result `A`. -/
theorem W8_v61 (A : (⟨Cert.ReferenceIdeal.S100000x40, .f32⟩ : BufTy).Contents (Elt F)) (hA : W7 m ρ c (Proc.devRef .tc main_v48) = A) :
    W8 m ρ c (Proc.devRef .tc main_v61)
      = Host.scatterAdd Cert.ReferenceIdeal.scatter_S100000x40_S1700000x1_S1700000x40_1_0_0_1 (Cert.ReferenceIdeal.ReadP.val_main_v61 (F := F)) (Cert.ReferenceIdeal.ReadP.val_main_v62 (F := F) (m ((c : Thread nD τ).loc main_arg1)))
          (mulf (Host.gather Cert.ReferenceIdeal.gather_S100000x40_S1700000x1_S1700000x40_1_0_n_n_0_1_140 A (Cert.ReferenceIdeal.ReadP.val_main_v56 (F := F) (m ((c : Thread nD τ).loc main_arg1)))) (Cert.ReferenceIdeal.ReadP.val_main_v59 (F := F) (m ((c : Thread nD τ).loc main_arg1)))) := by
  show StableHlo.after hostOps3 (W7 m ρ c) (Proc.devRef .tc main_v61) = _
  generalize hV : W7 m ρ c = V
  after_results_simp
  (try simp only [TRef.ofBuf, TRef.toBuf, cast_eq])
  all_goals subst hV
  rw [hA, W7_main_v3, W7_main_v6, W7_main_v31, W3_v3, W3_v6, W3_v31]
  all_goals (try simp only [Cert.ReferenceIdeal.ReadP.val_main_v50, Cert.ReferenceIdeal.ReadP.val_main_c_10, Cert.ReferenceIdeal.ReadP.val_main_v51, Cert.ReferenceIdeal.ReadP.val_main_v52, Cert.ReferenceIdeal.ReadP.val_main_c_11, Cert.ReferenceIdeal.ReadP.val_main_v53, Cert.ReferenceIdeal.ReadP.val_main_v54, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_cst_12, Cert.ReferenceIdeal.ReadP.val_main_v61, Cert.ReferenceIdeal.ReadP.val_main_v62, Cert.ReferenceIdeal.ReadP.val_main_v63, Cert.ReferenceIdeal.ReadP.val_main_v64, Cert.ReferenceIdeal.ReadP.val_main_v65, Cert.ReferenceIdeal.ReadP.val_main_v66])
  all_goals rfl

/-- The second bias vector as a one-row array. -/
theorem W8_v62 : W8 m ρ c (Proc.devRef .tc main_v62) = shapeCast S1x40 (m ((c : Thread nD τ).loc main_arg5)) shapeCasts_S40_S1x40 := by
  show StableHlo.after hostOps3 (W7 m ρ c) (Proc.devRef .tc main_v62) = _
  generalize hV : W7 m ρ c = V
  after_results_simp
  (try simp only [TRef.ofBuf, TRef.toBuf, cast_eq])
  all_goals subst hV
  rw [W7_main_arg5, W3_main_arg5]
  all_goals rfl

end Host

/-! ## The regions, on the extended reals -/

section Regions
variable (m : (ℓ : Loc nD τ sig) → Buf (Elt Ideal) ℓ) (ρ : Dev nD → PrngReg) (c : Dev nD)

/-- The first dense region leaves the reference's first matrix product. -/
theorem W4_v32 : W4 m ρ c (Proc.devRef .tc main_v32) = Cert.ReferenceIdeal.ReadP.val_main_v32 (F := Ideal) (m ((c : Thread nD τ).loc main_arg0)) (m ((c : Thread nD τ).loc main_arg2)) := by
  refine (W4_arr m ρ c 2).trans ((Region0.value (V3 m ρ) c).trans ?_)
  rw [Cert.ReferenceIdeal.Stages.v32_eq]
  exact congrArg₂ linear (W3_main_arg0 m ρ c) (W3_main_arg2 m ρ c)

/-- The sum the first bias region is entered with is the reference's. -/
theorem W5_v45' : W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg2)) :=
  (W5_v45 m ρ c _ (W4_v32 m ρ c)).trans (by simp only [Cert.ReferenceIdeal.ReadP.val_main_v45, Cert.ReferenceIdeal.ReadP.val_main_v42, Cert.ReferenceIdeal.ReadP.val_main_v39])

/-- The bias-and-positive-part region leaves the reference's `relu` stage. -/
theorem W6_v47 : W6 m ρ c (Proc.devRef .tc main_v47) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Region1.value (V5 m ρ) c).trans ?_)
  rw [Cert.ReferenceIdeal.Stages.v49_eq]
  funext i
  show max (Payload.biased (W5 m ρ c (Proc.devRef .tc main_v45)) (W5 m ρ c (Proc.devRef .tc main_v46)) i) _ = _
  rw [W5_v45', W5_v46]
  unfold Payload.biased biasRelu addBias
  rw [shapeCast_a_1a_apply]

/-- The second dense region leaves the reference's second matrix product. -/
theorem W7_v48 : W7 m ρ c (Proc.devRef .tc main_v48) = Cert.ReferenceIdeal.ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Region2.value (V6 m ρ) c).trans ?_)
  rw [Cert.ReferenceIdeal.Stages.v50_eq]
  exact congrArg₂ linear (W6_v47 m ρ c) ((W6_main_arg4 m ρ c).trans (W3_main_arg4 m ρ c))

/-- The sum the last region is entered with is the reference's. -/
theorem W8_v61' : W8 m ρ c (Proc.devRef .tc main_v61) = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W8_v61 m ρ c _ (W7_v48 m ρ c)).trans (by simp only [Cert.ReferenceIdeal.ReadP.val_main_v63, Cert.ReferenceIdeal.ReadP.val_main_v60, Cert.ReferenceIdeal.ReadP.val_main_v57])

/-- THE RESULT: the last region leaves the reference's `log_softmax` stage. -/
theorem W9_v63 : W9 m ρ c (Proc.devRef .tc main_v63) = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Region3.value (V8 m ρ) c).trans ?_)
  rw [Cert.ReferenceIdeal.Stages.v67_eq, Cert.ReferenceIdeal.Stages.v66_eq]
  refine congrArg (logSoftmax _) ?_
  funext i
  show Payload.biased (W8 m ρ c (Proc.devRef .tc main_v61)) (W8 m ρ c (Proc.devRef .tc main_v62)) i = _
  rw [W8_v61', W8_v62]
  unfold Payload.biased addBias
  rw [shapeCast_a_1a_apply]

end Regions

end Cert.KernelIdeal.Chain

end
-- ==== Proof.lean ====
/-
  A two-layer graph convolution: a program of four kernel regions among host operations, against a reference made of
  host operations only, as functions of the same six arrays on the extended reals.

  Both programs append a self loop to every node, count each node's incoming edges, and weight every edge by the
  inverse square roots of its two end points' counts: the same host operations on the same words, so the edge lists
  and the weights are the same arrays in both. A layer multiplies the node features by a weight matrix, gathers the
  product's rows along the edges, scales them by the edge weights, adds them up at the target nodes, and adds a
  bias row; the first layer then takes the positive part, the second the row-wise logarithm of the softmax.

  The kernel program computes each matrix product in twenty blocks of 5000 rows, narrowing both
  operands to sixteen bits first: on the extended reals the narrowing is the identity and a block's product is the
  block of the whole product, entry by entry the same sum. Its bias steps work on the same blocks; every entry of a
  positive part, and every row of a logarithm of a softmax, depends on its own row and the bias row only, and a block
  holds whole rows. The reference takes the row maximum once more against the bound it started from, which changes
  nothing, and starts the row sum from the zero word. No entry need be finite for any of this: only the shape of the
  sums and the order of `max` are used.

  The frames of the two kernel programs and the run of the reference are generated; so are the stages the
  reference's result is read through. The value of the kernel program's result array is read off its run segment by
  segment (Proof/Chain.lean) from what each region leaves (Proof/Region0.lean … Region3.lean) and what each kernel
  body stores (Proof/Payloads.lean).
-/
import proofs.«182202_j6330781794593_1_alg».proof.Defs
import proofs.«182202_j6330781794593_1_alg».proof.Proof.Gen.Kernel
import proofs.«182202_j6330781794593_1_alg».proof.Proof.Gen.Kernel.Frame
import proofs.«182202_j6330781794593_1_alg».proof.Proof.Gen.KernelIdeal
import proofs.«182202_j6330781794593_1_alg».proof.Proof.Gen.KernelIdeal.Frame
import proofs.«182202_j6330781794593_1_alg».proof.Proof.Gen.ReferenceIdeal
import proofs.«182202_j6330781794593_1_alg».proof.Proof.Gen.Pre_finite_inputs
import proofs.«182202_j6330781794593_1_alg».proof.Proof.RunNamed
import proofs.«182202_j6330781794593_1_alg».proof.Proof.RefRead
import proofs.«182202_j6330781794593_1_alg».proof.Proof.RefChain
import proofs.«182202_j6330781794593_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs to its end without a fault and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.RunP.run (F := Ideal) m ρ)

/-- The two programs end with the same result array: the reference's last stage of the launch arguments. -/
theorem algebraic : Cert.algebraic_KernelIdeal_ReferenceIdeal := by
  intro m ρ m' ρ' _ hagree
  refine ⟨fun c => Cert.ReferenceIdeal.ReadP.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.W9_v63 m ρ c), (h c).2⟩)
      (Cert.KernelIdeal.Named.run_named (F := Ideal) m ρ)
  · refine (θ_run Cert.ReferenceIdeal.defs _ _).mono (fun r h c => ⟨?_, (h c).2⟩)
      (Cert.ReferenceIdeal.RunP.run (F := Ideal) m' ρ')
    rw [(h c).1, Cert.ReferenceIdeal.RefChain.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
